-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S524288x128 : Shape := ⟨2, ![524288, 128]⟩
abbrev S512x16 : Shape := ⟨2, ![512, 16]⟩
abbrev S16x128 : Shape := ⟨2, ![16, 128]⟩
abbrev S128x16 : Shape := ⟨2, ![128, 16]⟩
abbrev S16x512 : Shape := ⟨2, ![16, 512]⟩
abbrev S_ : Shape := ⟨0, ![]⟩

class Facts : Prop where
  bcast_S_S524288x128 : S_.BroadcastsInDim S524288x128 (![] : Fin 0 → Fin S524288x128.rank)
  reducesTo_S524288x128_S_d0_1 : S524288x128.ReducesTo [0, 1] S_
  h_S_ : 0 < S_.numel
  bcast_S_S512x16 : S_.BroadcastsInDim S512x16 (![] : Fin 0 → Fin S512x16.rank)
  reducesTo_S512x16_S_d0_1 : S512x16.ReducesTo [0, 1] S_
  bcast_S_S16x128 : S_.BroadcastsInDim S16x128 (![] : Fin 0 → Fin S16x128.rank)
  reducesTo_S16x128_S_d0_1 : S16x128.ReducesTo [0, 1] S_
  bcast_S_S128x16 : S_.BroadcastsInDim S128x16 (![] : Fin 0 → Fin S128x16.rank)
  reducesTo_S128x16_S_d0_1 : S128x16.ReducesTo [0, 1] S_
  bcast_S_S16x512 : S_.BroadcastsInDim S16x512 (![] : Fin 0 → Fin S16x512.rank)
  reducesTo_S16x512_S_d0_1 : S16x512.ReducesTo [0, 1] S_

variable [Facts]

def fn_part1 {F : FTy → Type} [FloatOps F] (main_arg4 : FVec F S16x512 .f32) (main_v13 : IVec S_ 1) (main_v16 : IVec S128x16 1) : IVec S_ 1 :=
  let main_c_5 : IVec S_ 1 := constantI S_ 1 1#1
  let main_v17 : IVec S_ 1 := (fun x v => Host.reduce IntOp.andi x v reducesTo_S128x16_S_d0_1 h_S_) main_v16 main_c_5
  let main_v18 : IVec S_ 1 := andi main_v13 main_v17
  let main_v19 : FVec F S16x512 .f32 := Host.absf main_arg4
  let main_cst_6 : FVec F S_ .f32 := constant S_ .f32 0x7F800000#32
  let main_v20 : FVec F S16x512 .f32 := broadcastInDim S16x512 ![] bcast_S_S16x512 main_cst_6
  let main_v21 : IVec S16x512 1 := cmpf .olt main_v19 main_v20
  let main_c_7 : IVec S_ 1 := constantI S_ 1 1#1
  let main_v22 : IVec S_ 1 := (fun x v => Host.reduce IntOp.andi x v reducesTo_S16x512_S_d0_1 h_S_) main_v21 main_c_7
  let main_v23 : IVec S_ 1 := andi main_v18 main_v22
  main_v23

def fn {F : FTy → Type} [FloatOps F] (main_arg0 : FVec F S524288x128 .f32) (main_arg1 : FVec F S512x16 .f32) (main_arg2 : FVec F S16x128 .f32) (main_arg3 : FVec F S128x16 .f32) (main_arg4 : FVec F S16x512 .f32) : IVec S_ 1 :=
  let main_v0 : FVec F S524288x128 .f32 := Host.absf main_arg0
  let main_cst : FVec F S_ .f32 := constant S_ .f32 0x7F800000#32
  let main_v1 : FVec F S524288x128 .f32 := broadcastInDim S524288x128 ![] bcast_S_S524288x128 main_cst
  let main_v2 : IVec S524288x128 1 := cmpf .olt main_v0 main_v1
  let main_c : IVec S_ 1 := constantI S_ 1 1#1
  let main_v3 : IVec S_ 1 := (fun x v => Host.reduce IntOp.andi x v reducesTo_S524288x128_S_d0_1 h_S_) main_v2 main_c
  let main_v4 : FVec F S512x16 .f32 := Host.absf main_arg1
  let main_cst_0 : FVec F S_ .f32 := constant S_ .f32 0x7F800000#32
  let main_v5 : FVec F S512x16 .f32 := broadcastInDim S512x16 ![] bcast_S_S512x16 main_cst_0
  let main_v6 : IVec S512x16 1 := cmpf .olt main_v4 main_v5
  let main_c_1 : IVec S_ 1 := constantI S_ 1 1#1
  let main_v7 : IVec S_ 1 := (fun x v => Host.reduce IntOp.andi x v reducesTo_S512x16_S_d0_1 h_S_) main_v6 main_c_1
  let main_v8 : IVec S_ 1 := andi main_v3 main_v7
  let main_v9 : FVec F S16x128 .f32 := Host.absf main_arg2
  let main_cst_2 : FVec F S_ .f32 := constant S_ .f32 0x7F800000#32
  let main_v10 : FVec F S16x128 .f32 := broadcastInDim S16x128 ![] bcast_S_S16x128 main_cst_2
  let main_v11 : IVec S16x128 1 := cmpf .olt main_v9 main_v10
  let main_c_3 : IVec S_ 1 := constantI S_ 1 1#1
  let main_v12 : IVec S_ 1 := (fun x v => Host.reduce IntOp.andi x v reducesTo_S16x128_S_d0_1 h_S_) main_v11 main_c_3
  let main_v13 : IVec S_ 1 := andi main_v8 main_v12
  let main_v14 : FVec F S128x16 .f32 := Host.absf main_arg3
  let main_cst_4 : FVec F S_ .f32 := constant S_ .f32 0x7F800000#32
  let main_v15 : FVec F S128x16 .f32 := broadcastInDim S128x16 ![] bcast_S_S128x16 main_cst_4
  let main_v16 : IVec S128x16 1 := cmpf .olt main_v14 main_v15
  fn_part1 (F := F) main_arg4 main_v13 main_v16
-- ==== Kernel.lean ====
abbrev S524288x128 : Shape := ⟨2, ![524288, 128]⟩
abbrev S512x16 : Shape := ⟨2, ![512, 16]⟩
abbrev S16x128 : Shape := ⟨2, ![16, 128]⟩
abbrev S128x16 : Shape := ⟨2, ![128, 16]⟩
abbrev S16x512 : Shape := ⟨2, ![16, 512]⟩
abbrev S128x512 : Shape := ⟨2, ![128, 512]⟩
abbrev S512x128 : Shape := ⟨2, ![512, 128]⟩
abbrev S2048x128 : Shape := ⟨2, ![2048, 128]⟩
abbrev S2048x512 : Shape := ⟨2, ![2048, 512]⟩

abbrev nBuf : Space → Nat
  | .hbm => 12
  | .vmem => 6
  | .smem => 0
  | _ => 0

abbrev bufTy : (tb : Table) → Fin (tcTables nBuf tb) → BufTy
  | .hbm, ⟨0, _⟩ => ⟨S524288x128, .f32⟩
  | .hbm, ⟨1, _⟩ => ⟨S512x16, .f32⟩
  | .hbm, ⟨2, _⟩ => ⟨S16x128, .f32⟩
  | .hbm, ⟨3, _⟩ => ⟨S128x16, .f32⟩
  | .hbm, ⟨4, _⟩ => ⟨S16x512, .f32⟩
  | .hbm, ⟨5, _⟩ => ⟨S128x16, .f32⟩
  | .hbm, ⟨6, _⟩ => ⟨S16x512, .f32⟩
  | .hbm, ⟨7, _⟩ => ⟨S128x512, .f32⟩
  | .hbm, ⟨8, _⟩ => ⟨S512x16, .f32⟩
  | .hbm, ⟨9, _⟩ => ⟨S16x128, .f32⟩
  | .hbm, ⟨10, _⟩ => ⟨S512x128, .f32⟩
  | .hbm, ⟨11, _⟩ => ⟨S524288x128, .f32⟩
  | .local _ .vmem, ⟨0, _⟩ => ⟨S2048x128, .f32⟩
  | .local _ .vmem, ⟨1, _⟩ => ⟨S2048x128, .f32⟩
  | .local _ .vmem, ⟨2, _⟩ => ⟨S128x512, .f32⟩
  | .local _ .vmem, ⟨3, _⟩ => ⟨S512x128, .f32⟩
  | .local _ .vmem, ⟨4, _⟩ => ⟨S2048x128, .f32⟩
  | .local _ .vmem, ⟨5, _⟩ => ⟨S2048x128, .f32⟩
  | _, _ => ⟨S524288x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S16x128_S128x16_1_0 : S16x128.Transposes [1, 0] S128x16
  transposes_S512x16_S16x512_1_0 : S512x16.Transposes [1, 0] S16x512
  transposes_S16x512_S512x16_1_0 : S16x512.Transposes [1, 0] S512x16
  transposes_S128x16_S16x128_1_0 : S128x16.Transposes [1, 0] S16x128
  inb_S2048x128_S2048x128_0_0 : ∀ a, (![0, 0] : Fin 2 → Nat) a + S2048x128.size a ≤ S2048x128.size a
  h_S2048x128 : 0 < S2048x128.numel
  bitsLt_bf16_f32 : FTy.bits .bf16 < FTy.bits .f32
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S512x128_S512x128_0_0 : ∀ a, (![0, 0] : Fin 2 → Nat) a + S512x128.size a ≤ S512x128.size a
  h_S512x128 : 0 < S512x128.numel
  shapeCasts_S512x128_S512x128 : S512x128.ShapeCasts S512x128
  dot_S128x16_S16x512_S128x512_1_0_0_1_n_n_wf : DotDims.WF S128x16 S16x512 S128x512 [1] [0] [0] [1] [] []
  dot_S512x16_S16x128_S512x128_1_0_0_1_n_n_wf : DotDims.WF S512x16 S16x128 S512x128 [1] [0] [0] [1] [] []
  dot_S2048x128_S128x512_S2048x512_1_0_0_1_n_n_wf : DotDims.WF S2048x128 S128x512 S2048x512 [1] [0] [0] [1] [] []
  dot_S2048x512_S512x128_S2048x128_1_0_0_1_n_n_wf : DotDims.WF S2048x512 S512x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S524288x128.size a
  hwx0_0 : ∀ i : grid0.Coords, EltTy.bits .f32 = 32 ∨ (Rect.block (s := S524288x128) S2048x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x512.size a ≤ S128x512.size a
  hwx0_1 : ∀ i : grid0.Coords, EltTy.bits .f32 = 32 ∨ (Rect.block (s := S128x512) S128x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x128.size a ≤ S512x128.size a
  hwx0_2 : ∀ i : grid0.Coords, EltTy.bits .f32 = 32 ∨ (Rect.block (s := S512x128) S512x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x128.size a ≤ S524288x128.size a
  hwx0_3 : ∀ i : grid0.Coords, EltTy.bits .f32 = 32 ∨ (Rect.block (s := S524288x128) S2048x128.size (cc0_transform_3 i) (hinb0_3 i)).WholeWords (EltTy.packing .f32)

variable [Facts₀]

def dot_S128x16_S16x512_S128x512_1_0_0_1_n_n : DotDims S128x16 S16x512 S128x512 where
  lhsContracting := [1]
  rhsContracting := [0]
  lhsNonContracting := [0]
  rhsNonContracting := [1]
  lhsBatch := []
  rhsBatch := []
  wf := dot_S128x16_S16x512_S128x512_1_0_0_1_n_n_wf
def dot_S512x16_S16x128_S512x128_1_0_0_1_n_n : DotDims S512x16 S16x128 S512x128 where
  lhsContracting := [1]
  rhsContracting := [0]
  lhsNonContracting := [0]
  rhsNonContracting := [1]
  lhsBatch := []
  rhsBatch := []
  wf := dot_S512x16_S16x128_S512x128_1_0_0_1_n_n_wf
def dot_S2048x128_S128x512_S2048x512_1_0_0_1_n_n : DotDims S2048x128 S128x512 S2048x512 where
  lhsContracting := [1]
  rhsContracting := [0]
  lhsNonContracting := [0]
  rhsNonContracting := [1]
  lhsBatch := []
  rhsBatch := []
  wf := dot_S2048x128_S128x512_S2048x512_1_0_0_1_n_n_wf
def dot_S2048x512_S512x128_S2048x128_1_0_0_1_n_n : DotDims S2048x512 S512x128 S2048x128 where
  lhsContracting := [1]
  rhsContracting := [0]
  lhsNonContracting := [0]
  rhsNonContracting := [1]
  lhsBatch := []
  rhsBatch := []
  wf := dot_S2048x512_S512x128_S2048x128_1_0_0_1_n_n_wf

abbrev win0_0 : Pipeline.Window sig grid0 :=
  Pipeline.Window.ofSpec (Memref.whole main_arg0) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S128x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S512x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S2048x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S524288x128 : Shape := ⟨2, ![524288, 128]⟩
abbrev S512x16 : Shape := ⟨2, ![512, 16]⟩
abbrev S16x128 : Shape := ⟨2, ![16, 128]⟩
abbrev S128x16 : Shape := ⟨2, ![128, 16]⟩
abbrev S16x512 : Shape := ⟨2, ![16, 512]⟩
abbrev S512x128 : Shape := ⟨2, ![512, 128]⟩
abbrev S128x512 : Shape := ⟨2, ![128, 512]⟩
abbrev S524288x512 : Shape := ⟨2, ![524288, 512]⟩

abbrev nBuf : Space → Nat
  | .hbm => 12
  | .vmem => 0
  | .smem => 0
  | _ => 0

abbrev bufTy : (tb : Table) → Fin (tcTables nBuf tb) → BufTy
  | .hbm, ⟨0, _⟩ => ⟨S524288x128, .f32⟩
  | .hbm, ⟨1, _⟩ => ⟨S512x16, .f32⟩
  | .hbm, ⟨2, _⟩ => ⟨S16x128, .f32⟩
  | .hbm, ⟨3, _⟩ => ⟨S128x16, .f32⟩
  | .hbm, ⟨4, _⟩ => ⟨S16x512, .f32⟩
  | .hbm, ⟨5, _⟩ => ⟨S512x128, .f32⟩
  | .hbm, ⟨6, _⟩ => ⟨S128x512, .f32⟩
  | .hbm, ⟨7, _⟩ => ⟨S524288x512, .f32⟩
  | .hbm, ⟨8, _⟩ => ⟨S524288x512, .f32⟩
  | .hbm, ⟨9, _⟩ => ⟨S128x512, .f32⟩
  | .hbm, ⟨10, _⟩ => ⟨S512x128, .f32⟩
  | .hbm, ⟨11, _⟩ => ⟨S524288x128, .f32⟩
  | _, _ => ⟨S524288x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]

class Facts₀ : Prop where
  transposes_S512x128_S128x512_1_0 : S512x128.Transposes [1, 0] S128x512
  transposes_S128x512_S512x128_1_0 : S128x512.Transposes [1, 0] S512x128
  dot_S512x16_S16x128_S512x128_1_0_0_1_n_n_wf : DotDims.WF S512x16 S16x128 S512x128 [1] [0] [0] [1] [] []
  dot_S524288x128_S128x512_S524288x512_1_0_0_1_n_n_wf : DotDims.WF S524288x128 S128x512 S524288x512 [1] [0] [0] [1] [] []
  dot_S128x16_S16x512_S128x512_1_0_0_1_n_n_wf : DotDims.WF S128x16 S16x512 S128x512 [1] [0] [0] [1] [] []
  dot_S524288x512_S512x128_S524288x128_1_0_0_1_n_n_wf : DotDims.WF S524288x512 S512x128 S524288x128 [1] [0] [0] [1] [] []

variable [Facts₀]

def dot_S512x16_S16x128_S512x128_1_0_0_1_n_n : DotDims S512x16 S16x128 S512x128 where
  lhsContracting := [1]
  rhsContracting := [0]
  lhsNonContracting := [0]
  rhsNonContracting := [1]
  lhsBatch := []
  rhsBatch := []
  wf := dot_S512x16_S16x128_S512x128_1_0_0_1_n_n_wf
def dot_S524288x128_S128x512_S524288x512_1_0_0_1_n_n : DotDims S524288x128 S128x512 S524288x512 where
  lhsContracting := [1]
  rhsContracting := [0]
  lhsNonContracting := [0]
  rhsNonContracting := [1]
  lhsBatch := []
  rhsBatch := []
  wf := dot_S524288x128_S128x512_S524288x512_1_0_0_1_n_n_wf
def dot_S128x16_S16x512_S128x512_1_0_0_1_n_n : DotDims S128x16 S16x512 S128x512 where
  lhsContracting := [1]
  rhsContracting := [0]
  lhsNonContracting := [0]
  rhsNonContracting := [1]
  lhsBatch := []
  rhsBatch := []
  wf := dot_S128x16_S16x512_S128x512_1_0_0_1_n_n_wf
def dot_S524288x512_S512x128_S524288x128_1_0_0_1_n_n : DotDims S524288x512 S512x128 S524288x128 where
  lhsContracting := [1]
  rhsContracting := [0]
  lhsNonContracting := [0]
  rhsNonContracting := [1]
  lhsBatch := []
  rhsBatch := []
  wf := dot_S524288x512_S512x128_S524288x128_1_0_0_1_n_n_wf

class Facts : Prop extends Facts₀ where

variable [Facts]
-- ==== Proof.Spec.lean ====
/-
  The function both programs compute, entry by entry, on the extended reals.

  With W1 = A1 · B1 (a [512, 128] matrix of rank at most 16) and W2 = A2 · B2 (a [128, 512] one), the result at
  row b and column o is

      y (b, o) = ∑ h, (∑ d, x (b, d) · W1ᵀ (d, h))² · W2ᵀ (h, o),

  where W1ᵀ (d, h) = ∑ r, A1 (h, r) · B1 (r, d) and W2ᵀ (h, o) = ∑ r, A2 (o, r) · B2 (r, h). Every sum is
  finite and every product is of two factors, so the only law needed to compare two ways of writing it is that
  multiplication of extended reals commutes.
-/
import Idealize.ShloMosaic.Lib.ValueIdx

noncomputable section

open scoped BigOperators

namespace Cert.LowRankMlp

open Idealize.ShloMosaic Idealize.ShloMosaic.ValueIdx

/-- Entry (d, h) of the transposed first weight (A1 · B1)ᵀ. -/
def w1t (A1 : (⟨2, ![512, 16]⟩ : Shape).Idx → EReal) (B1 : (⟨2, ![16, 128]⟩ : Shape).Idx → EReal)
    (d : Fin 128) (h : Fin 512) : EReal :=
  ∑ r : Fin 16, A1 (ix2 h r) * B1 (ix2 r d)

/-- Entry (h, o) of the transposed second weight (A2 · B2)ᵀ. -/
def w2t (A2 : (⟨2, ![128, 16]⟩ : Shape).Idx → EReal) (B2 : (⟨2, ![16, 512]⟩ : Shape).Idx → EReal)
    (h : Fin 512) (o : Fin 128) : EReal :=
  ∑ r : Fin 16, A2 (ix2 o r) * B2 (ix2 r h)

/-- The hidden activation before squaring: row b of x against column h of W1ᵀ. -/
def hiddenAt (x : (⟨2, ![524288, 128]⟩ : Shape).Idx → EReal) (A1 : (⟨2, ![512, 16]⟩ : Shape).Idx → EReal)
    (B1 : (⟨2, ![16, 128]⟩ : Shape).Idx → EReal) (b : Fin 524288) (h : Fin 512) : EReal :=
  ∑ d : Fin 128, x (ix2 b d) * w1t A1 B1 d h

/-- The result at row b, column o. -/
def outAt (x : (⟨2, ![524288, 128]⟩ : Shape).Idx → EReal) (A1 : (⟨2, ![512, 16]⟩ : Shape).Idx → EReal)
    (B1 : (⟨2, ![16, 128]⟩ : Shape).Idx → EReal) (A2 : (⟨2, ![128, 16]⟩ : Shape).Idx → EReal)
    (B2 : (⟨2, ![16, 512]⟩ : Shape).Idx → EReal) (b : Fin 524288) (o : Fin 128) : EReal :=
  ∑ h : Fin 512, (hiddenAt x A1 B1 b h * hiddenAt x A1 B1 b h) * w2t A2 B2 h o

/-- The whole result array. -/
def out (x : (⟨2, ![524288, 128]⟩ : Shape).Idx → EReal) (A1 : (⟨2, ![512, 16]⟩ : Shape).Idx → EReal)
    (B1 : (⟨2, ![16, 128]⟩ : Shape).Idx → EReal) (A2 : (⟨2, ![128, 16]⟩ : Shape).Idx → EReal)
    (B2 : (⟨2, ![16, 512]⟩ : Shape).Idx → EReal) : (⟨2, ![524288, 128]⟩ : Shape).Idx → EReal :=
  fun i => outAt x A1 B1 A2 B2 (i 0) (i 1)

theorem out_apply (x : (⟨2, ![524288, 128]⟩ : Shape).Idx → EReal) (A1 : (⟨2, ![512, 16]⟩ : Shape).Idx → EReal)
    (B1 : (⟨2, ![16, 128]⟩ : Shape).Idx → EReal) (A2 : (⟨2, ![128, 16]⟩ : Shape).Idx → EReal)
    (B2 : (⟨2, ![16, 512]⟩ : Shape).Idx → EReal) (b : Fin 524288) (o : Fin 128) :
    out x A1 B1 A2 B2 (ix2 b o) = outAt x A1 B1 A2 B2 b o := rfl

end Cert.LowRankMlp

end
-- ==== Proof.LibPlainDot.lean ====
/-
  A product of an [M, K] array with a [K, N] array that contracts the left operand's axis 1 against the right
  operand's axis 0 (no batch axis), read at the entry (p, q): the sum over k of left (p, k) times right (k, q).
  Stated once for every dimension record of that kind, so that the kernel's matrix unit into a zero accumulator
  and the host's dot product are both read by instantiating it. With it, the transpose of an [a, b] array read at
  (p, q): the array at (q, p).
-/
import Idealize.ShloMosaic.Lib.ValueIdx
import Idealize.ShloMosaic.Lib.Pipeline.Value
import Idealize.ShloMosaic.PureOps.Ideal.Laws

noncomputable section

open scoped BigOperators

namespace Idealize.ShloMosaic.PlainDot

open Idealize.ShloMosaic Idealize.ShloMosaic.ValueIdx

variable {M K N : Nat} (D : DotDims ⟨2, ![M, K]⟩ ⟨2, ![K, N]⟩ ⟨2, ![M, N]⟩)

/-- The dimension numbers of a plain matrix product: rows of the left operand against columns of the right one. -/
structure IsPlain : Prop where
  lc : D.lhsContracting = [1]
  rc : D.rhsContracting = [0]
  ln : D.lhsNonContracting = [0]
  rn : D.rhsNonContracting = [1]
  lb : D.lhsBatch = []
  rb : D.rhsBatch = []

variable {D}

/-- The contraction runs over one axis … -/
theorem contr_rank (h : IsPlain D) : D.contr.rank = 1 := by
  rw [D.rank_contr, h.lc]; rfl

/-- … whose extent is the shared dimension K. -/
theorem contr_size (h : IsPlain D) : D.contr.size ⟨0, by have := contr_rank h; omega⟩ = K := by
  have h0 : 0 < D.lhsContracting.length := by rw [h.lc]; exact Nat.one_pos
  rw [D.size_contr 0 h0]
  simp [h.lc]

/-- The left operand's row is the result's row. -/
theorem lhs_row (h : IsPlain D) (j : (⟨2, ![M, N]⟩ : Shape).Idx) (q : D.contr.Idx) :
    (D.lhsIdx j q 0).val = (j 0).val := by
  unfold DotDims.lhsIdx
  rw [dif_neg (by rw [h.lb]; exact List.not_mem_nil), dif_pos (by rw [h.ln]; exact List.mem_singleton.mpr rfl)]
  simp only [Fin.val_cast]
  have key : ∀ (a b : Nat) (ha : a < (⟨2, ![M, N]⟩ : Shape).rank) (hb : b < (⟨2, ![M, N]⟩ : Shape).rank), a = b →
      (j ⟨a, ha⟩).val = (j ⟨b, hb⟩).val := fun a b ha hb e => by subst e; rfl
  exact key _ _ _ _ (by simp [h.lb, h.ln])

/-- The left operand's column is the contraction coordinate. -/
theorem lhs_col (h : IsPlain D) (j : (⟨2, ![M, N]⟩ : Shape).Idx) (q : D.contr.Idx) :
    (D.lhsIdx j q 1).val = (q ⟨0, by have := contr_rank h; omega⟩).val :=
  D.lhsIdx_val_of_single h.lc j q

/-- The right operand's row is the contraction coordinate. -/
theorem rhs_row (h : IsPlain D) (j : (⟨2, ![M, N]⟩ : Shape).Idx) (q : D.contr.Idx) :
    (D.rhsIdx j q 0).val = (q ⟨0, by have := contr_rank h; omega⟩).val :=
  D.rhsIdx_val_of_single h.rc j q

/-- The right operand's column is the result's column. -/
theorem rhs_col (h : IsPlain D) (j : (⟨2, ![M, N]⟩ : Shape).Idx) (q : D.contr.Idx) :
    (D.rhsIdx j q 1).val = (j 1).val := by
  unfold DotDims.rhsIdx
  rw [dif_neg (by rw [h.rb]; exact List.not_mem_nil), dif_pos (by rw [h.rn]; exact List.mem_singleton.mpr rfl)]
  simp only [Fin.val_cast]
  have key : ∀ (a b : Nat) (ha : a < (⟨2, ![M, N]⟩ : Shape).rank) (hb : b < (⟨2, ![M, N]⟩ : Shape).rank), a = b →
      (j ⟨a, ha⟩).val = (j ⟨b, hb⟩).val := fun a b ha hb e => by subst e; rfl
  exact key _ _ _ _ (by simp [h.lb, h.ln, h.rn])

/-- The contraction's sum, re-indexed by the shared coordinate k. -/
theorem sum_contr {α : Type*} [AddCommMonoid α] [Mul α] (h : IsPlain D)
    (l : (⟨2, ![M, K]⟩ : Shape).Idx → α) (r : (⟨2, ![K, N]⟩ : Shape).Idx → α) (p : Fin M) (q : Fin N) :
    ∑ k : D.contr.Idx, l (D.lhsIdx (ix2 p q) k) * r (D.rhsIdx (ix2 p q) k) = ∑ k : Fin K, l (ix2 p k) * r (ix2 k q) := by
  rw [← Equiv.sum_comp (contrEquiv1 D K (contr_rank h) (contr_size h)).symm]
  refine Finset.sum_congr rfl fun k _ => ?_
  have hk := contrEquiv1_symm_val D K (contr_rank h) (contr_size h) k
  have el : D.lhsIdx (ix2 p q) ((contrEquiv1 D K (contr_rank h) (contr_size h)).symm k) = ix2 p k :=
    funext fun a => Fin.ext (by
      match a with
      | ⟨0, _⟩ => exact lhs_row h _ _
      | ⟨1, _⟩ => exact (lhs_col h _ _).trans hk)
  have er : D.rhsIdx (ix2 p q) ((contrEquiv1 D K (contr_rank h) (contr_size h)).symm k) = ix2 k q :=
    funext fun a => Fin.ext (by
      match a with
      | ⟨0, _⟩ => exact (rhs_row h _ _).trans hk
      | ⟨1, _⟩ => exact rhs_col h _ _)
  rw [el, er]

/-- The matrix unit into the zero accumulator, on the extended reals, at (p, q). -/
theorem matmul_zero_apply {φ₁ φ₂ : FTy} (h : IsPlain D) (prec : Option ContractPrecision)
    (l : FVec Ideal ⟨2, ![M, K]⟩ φ₁) (r : FVec Ideal ⟨2, ![K, N]⟩ φ₂) (p : Fin M) (q : Fin N) :
    FloatOps.matmul D prec l r (constant ⟨2, ![M, N]⟩ .f32 0x00000000#32) (ix2 p q) = ∑ k : Fin K, l (ix2 p k) * r (ix2 k q) :=
  (Ideal.matmul_constant_zero_apply D prec l r (ix2 p q)).trans (sum_contr h l r p q)

/-- The host's dot product, on the extended reals, at (p, q). -/
theorem dotGeneral_apply {φ₁ φ₂ : FTy} (h : IsPlain D) (prec : Option ContractPrecision) (sched : HostSchedule)
    (l : FVec Ideal ⟨2, ![M, K]⟩ φ₁) (r : FVec Ideal ⟨2, ![K, N]⟩ φ₂) (p : Fin M) (q : Fin N) :
    FloatOps.dotGeneral D prec sched l r (ix2 p q) = ∑ k : Fin K, l (ix2 p k) * r (ix2 k q) :=
  (Ideal.dotGeneral_apply D prec sched l r (ix2 p q)).trans (sum_contr h l r p q)

/-- The transpose of an [a, b] array at (p, q) is the array at (q, p). -/
theorem transpose_apply2 {α : Type} {a b : Nat} (x : (⟨2, ![a, b]⟩ : Shape).Idx → α)
    (h : (⟨2, ![a, b]⟩ : Shape).Transposes [1, 0] ⟨2, ![b, a]⟩) (p : Fin b) (q : Fin a) :
    transpose ⟨2, ![b, a]⟩ [1, 0] x h (ix2 p q) = x (ix2 q p) :=
  transpose_apply [1, 0] x h (ix2 p q) (ix2 q p) (fun c => match c with
    | ⟨0, _⟩ => rfl
    | ⟨1, _⟩ => rfl)

end Idealize.ShloMosaic.PlainDot

end
-- ==== Proof.KernelValue.lean ====
/-
  The kernel, read entry by entry.

  Before the grid runs, the host forms the two transposed weights: W1ᵀ (d, h) as the product of B1ᵀ with A1ᵀ,
  W2ᵀ (h, o) as the product of B2ᵀ with A2ᵀ; up to the order of the two factors in each term these are the
  specification's sums. Grid point t stages rows 2048·t … 2048·t + 2047 of x together with both whole weights, and
  stores, at row p and column o of its block, the second matrix product of the squared first one: that is the
  specified result at row 2048·t + p. The 256 blocks tile the result array, so after the run the array is the
  specified one.
-/
import proofs.«178964_j58978490908683_1_alg».proof.Proof.Gen.KernelIdeal.Value
import proofs.«178964_j58978490908683_1_alg».proof.Proof.Spec
import proofs.«178964_j58978490908683_1_alg».proof.Proof.LibPlainDot
import Idealize.ShloMosaic.Lib.Pipeline.Value
import Idealize.ShloMosaic.Lib.StableHlo.Run
import Idealize.ShloMosaic.Lib.Tactic

noncomputable section

open scoped BigOperators

namespace Cert.KernelIdeal.KernelValue

open Cert.KernelIdeal Cert.KernelIdeal.Gen Idealize.ShloMosaic Idealize.ShloMosaic.TcCoe Idealize.SL.Sem
open Idealize.ShloMosaic.ValueIdx Idealize.ShloMosaic.StableHlo Cert.LowRankMlp
open Idealize.ShloMosaic.Pipeline (Dat)

variable (m : (ℓ : Loc nD τ sig) → Buf (Elt Ideal) ℓ) (ρ : Dev nD → PrngReg)

/-! ## The four products are plain matrix products -/

theorem plain_w1 : PlainDot.IsPlain dot_S128x16_S16x512_S128x512_1_0_0_1_n_n := ⟨rfl, rfl, rfl, rfl, rfl, rfl⟩
theorem plain_w2 : PlainDot.IsPlain dot_S512x16_S16x128_S512x128_1_0_0_1_n_n := ⟨rfl, rfl, rfl, rfl, rfl, rfl⟩
theorem plain_first : PlainDot.IsPlain dot_S2048x128_S128x512_S2048x512_1_0_0_1_n_n := ⟨rfl, rfl, rfl, rfl, rfl, rfl⟩
theorem plain_second : PlainDot.IsPlain dot_S2048x512_S512x128_S2048x128_1_0_0_1_n_n := ⟨rfl, rfl, rfl, rfl, rfl, rfl⟩

/-! ## The argument arrays, at their literal types -/

abbrev argX (c : Dev nD) : FVec Ideal S524288x128 .f32 := m ((c : Thread nD τ).loc main_arg0)
abbrev argA1 (c : Dev nD) : FVec Ideal S512x16 .f32 := m ((c : Thread nD τ).loc main_arg1)
abbrev argB1 (c : Dev nD) : FVec Ideal S16x128 .f32 := m ((c : Thread nD τ).loc main_arg2)
abbrev argA2 (c : Dev nD) : FVec Ideal S128x16 .f32 := m ((c : Thread nD τ).loc main_arg3)
abbrev argB2 (c : Dev nD) : FVec Ideal S16x512 .f32 := m ((c : Thread nD τ).loc main_arg4)

/-! ## The weights the host hands to the grid -/

/-- The second window's array when the grid starts: B1ᵀ times A1ᵀ. -/
theorem V_w1 (c : Dev nD) : (V m c main_v2 : S128x512.Idx → EReal) =
    Host.dotGeneral (F := Ideal) dot_S128x16_S16x512_S128x512_1_0_0_1_n_n none
      (transpose S128x16 [1, 0] (argB1 m c) transposes_S16x128_S128x16_1_0)
      (transpose S16x512 [1, 0] (argA1 m c) transposes_S512x16_S16x512_1_0) := by
  dsimp only [Gen.V, Gen.hostOps0]; after_results

/-- The third window's array when the grid starts: B2ᵀ times A2ᵀ. -/
theorem V_w2 (c : Dev nD) : (V m c main_v5 : S512x128.Idx → EReal) =
    Host.dotGeneral (F := Ideal) dot_S512x16_S16x128_S512x128_1_0_0_1_n_n none
      (transpose S512x16 [1, 0] (argB2 m c) transposes_S16x512_S512x16_1_0)
      (transpose S16x128 [1, 0] (argA2 m c) transposes_S128x16_S16x128_1_0) := by
  dsimp only [Gen.V, Gen.hostOps0]; after_results

/-- Entry (d, h) of the first staged weight is the specification's W1ᵀ (d, h): the same sixteen products, each
    with its factors in the other order. -/
theorem V_w1_apply (c : Dev nD) (d : Fin 128) (h : Fin 512) :
    (V m c main_v2 : S128x512.Idx → EReal) (ix2 d h)
      = w1t (argA1 m c) (argB1 m c) d h := by
  rw [V_w1]
  refine (PlainDot.dotGeneral_apply plain_w1 none _ _ _ d h).trans ?_
  unfold w1t
  refine Finset.sum_congr rfl fun r _ => ?_
  rw [PlainDot.transpose_apply2, PlainDot.transpose_apply2]
  exact mul_comm _ _

/-- Entry (h, o) of the second staged weight is the specification's W2ᵀ (h, o). -/
theorem V_w2_apply (c : Dev nD) (h : Fin 512) (o : Fin 128) :
    (V m c main_v5 : S512x128.Idx → EReal) (ix2 h o)
      = w2t (argA2 m c) (argB2 m c) h o := by
  rw [V_w2]
  refine (PlainDot.dotGeneral_apply plain_w2 none _ _ _ h o).trans ?_
  unfold w2t
  refine Finset.sum_congr rfl fun r _ => ?_
  rw [PlainDot.transpose_apply2, PlainDot.transpose_apply2]
  exact mul_comm _ _

/-! ## What the body stores, at one entry of the block -/

/-- The stored block at row p and column o: the second product over h of the squared first product, the staged
    blocks x0, x1, x2 read where the two products read them. The narrowings to sixteen bits are the identity on
    the extended reals, and so is the cast of a shape to itself. -/
theorem pay_apply (x0 : Vec Ideal S2048x128 .f32) (x1 : Vec Ideal S128x512 .f32) (x2 : Vec Ideal S512x128 .f32)
    (p : Fin 2048) (o : Fin 128) :
    k0_pay1 (F := Ideal) x0 x1 x2 (ix2 p o)
      = ∑ h : Fin 512, ((∑ d : Fin 128, x0 (ix2 p d) * x1 (ix2 d h)) * (∑ d : Fin 128, x0 (ix2 p d) * x1 (ix2 d h)))
          * x2 (ix2 h o) := by
  unfold k0_pay1
  refine (PlainDot.matmul_zero_apply plain_second none _ _ p o).trans ?_
  refine Finset.sum_congr rfl fun h _ => ?_
  rw [truncf_apply, truncf_apply, shapeCast_self, mulf_apply]
  simp only [matmul]
  rw [PlainDot.matmul_zero_apply plain_first none _ _ p h]
  simp only [truncf_apply, shapeCast_self]

/-- So, when row p of the first block is row b of x and the two other blocks are the specification's weights, the
    stored entry is the specified result at (b, o). -/
theorem pay_out (x0 : Vec Ideal S2048x128 .f32) (x1 : Vec Ideal S128x512 .f32) (x2 : Vec Ideal S512x128 .f32)
    (X : FVec Ideal S524288x128 .f32) (A1 : FVec Ideal S512x16 .f32) (B1 : FVec Ideal S16x128 .f32)
    (A2 : FVec Ideal S128x16 .f32) (B2 : FVec Ideal S16x512 .f32) (b : Fin 524288) (p : Fin 2048) (o : Fin 128)
    (h0 : ∀ d : Fin 128, x0 (ix2 p d) = X (ix2 b d))
    (h1 : ∀ (d : Fin 128) (h : Fin 512), x1 (ix2 d h) = w1t A1 B1 d h)
    (h2 : ∀ (h : Fin 512) (o : Fin 128), x2 (ix2 h o) = w2t A2 B2 h o) :
    k0_pay1 (F := Ideal) x0 x1 x2 (ix2 p o) = outAt X A1 B1 A2 B2 b o := by
  rw [pay_apply]
  unfold outAt hiddenAt
  refine Finset.sum_congr rfl fun h _ => ?_
  rw [h2]
  have e : ∑ d : Fin 128, x0 (ix2 p d) * x1 (ix2 d h) = ∑ d : Fin 128, X (ix2 b d) * w1t A1 B1 d h :=
    Finset.sum_congr rfl fun d _ => by rw [h0, h1]
  rw [e]

/-! ## The blocks each grid point stages and writes back -/

theorem hz : (![0, 0] : Fin 2 → Nat) = fun _ => 0 := funext fun a => by fin_cases a <;> rfl

/-- There are 256 grid points. -/
theorem pt_lt (t : Fin cfg0.N) : t.val < 256 := by
  have h : t.val < cfg0.N := t.isLt
  have hN : cfg0.N = 256 := N_0
  omega

/-- The printed index maps over the grid: the blocks of x and of the result move with the point along the rows,
    and both weights stay at their one block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row p of the block of x at point t is row 2048·t + p of x. -/
theorem xblk_apply (c : Dev nD) (t : Fin cfg0.N) (p : Fin 2048) (d : Fin 128) (b : Fin 524288)
    (hb : b.val = 2048 * t.val + p.val) :
    (iblk m c 0 t : Vec Ideal S2048x128 .f32) (ix2 p d) = argX m c (ix2 b d) := by
  obtain ⟨e0, e1, -⟩ := idx_facts t
  unfold iblk
  rw [View.read_apply]
  show V m c main_arg0 _ = _
  rw [V_main_arg0]
  refine congrArg (argX m c) (funext fun a => Fin.ext ?_)
  match a with
  | ⟨0, _⟩ => show win0_0.index t (0 : Fin 2) * 2048 + 1 * p.val = b.val; rw [e0, hb]; omega
  | ⟨1, _⟩ => show win0_0.index t (1 : Fin 2) * 128 + 1 * d.val = d.val; rw [e1]; omega

/-- The block of the first weight is the whole weight, at every point. -/
theorem w1blk_apply (c : Dev nD) (t : Fin cfg0.N) (d : Fin 128) (h : Fin 512) :
    (iblk m c 1 t : Vec Ideal S128x512 .f32) (ix2 d h) = w1t (argA1 m c) (argB1 m c) d h := by
  obtain ⟨-, -, e0, e1, -⟩ := idx_facts t
  rw [← V_w1_apply]
  unfold iblk
  rw [View.read_apply]
  show V m c main_v2 _ = V m c main_v2 _
  refine congrArg (V m c main_v2) (funext fun a => Fin.ext ?_)
  match a with
  | ⟨0, _⟩ => show win0_1.index t (0 : Fin 2) * 128 + 1 * d.val = d.val; rw [e0]; omega
  | ⟨1, _⟩ => show win0_1.index t (1 : Fin 2) * 512 + 1 * h.val = h.val; rw [e1]; omega

/-- The block of the second weight is the whole weight, at every point. -/
theorem w2blk_apply (c : Dev nD) (t : Fin cfg0.N) (h : Fin 512) (o : Fin 128) :
    (iblk m c 2 t : Vec Ideal S512x128 .f32) (ix2 h o) = w2t (argA2 m c) (argB2 m c) h o := by
  obtain ⟨-, -, -, -, e0, e1, -⟩ := idx_facts t
  rw [← V_w2_apply]
  unfold iblk
  rw [View.read_apply]
  show V m c main_v5 _ = V m c main_v5 _
  refine congrArg (V m c main_v5) (funext fun a => Fin.ext ?_)
  match a with
  | ⟨0, _⟩ => show win0_2.index t (0 : Fin 2) * 512 + 1 * h.val = h.val; rw [e0]; omega
  | ⟨1, _⟩ => show win0_2.index t (1 : Fin 2) * 128 + 1 * o.val = o.val; rw [e1]; omega

/-- The specified result of the argument arrays as launched. -/
abbrev result (c : Dev nD) : Buf (Elt Ideal) ((c : Thread nD τ).loc main_v6) :=
  out (argX m c) (argA1 m c) (argB1 m c) (argA2 m c) (argB2 m c)

/-- What point t writes back is block t of the specified result. -/
theorem flushed_eq (c : Dev nD) (t : Fin cfg0.N) :
    (dats m 0 c).flushed 3 t = ((cfg0.win 3).blk t).view.read (Elt Ideal) (result m c) := by
  obtain ⟨-, -, -, -, -, -, e0, e1⟩ := idx_facts t
  have ht := pt_lt t
  rw [Value.flushed3]
  unfold out0_3
  rw [View.canon_unit_zero hz]
  simp only [View.ld_unit_zero (S := S2048x128) hz, View.ld_unit_zero (S := S128x512) hz,
    View.ld_unit_zero (S := S512x128) hz]
  funext j
  obtain ⟨p, o, rfl⟩ : ∃ (p : Fin 2048) (o : Fin 128), j = ix2 p o := ⟨j 0, j 1, eq_ix2 j⟩
  rw [View.read_apply]
  have he : ((cfg0.win 3).blk t).view.emb (ix2 p o) = ix2 (⟨2048 * t.val + p.val, by omega⟩ : Fin 524288) o :=
    funext fun a => Fin.ext (by
      match a with
      | ⟨0, _⟩ => show win0_3.index t (0 : Fin 2) * 2048 + 1 * p.val = 2048 * t.val + p.val; rw [e0]; omega
      | ⟨1, _⟩ => show win0_3.index t (1 : Fin 2) * 128 + 1 * o.val = o.val; rw [e1]; omega)
  rw [he]
  show k0_pay1 (F := Ideal) (iblk m c 0 t) (iblk m c 1 t) (iblk m c 2 t) (ix2 p o) = _
  exact pay_out (iblk m c 0 t) (iblk m c 1 t) (iblk m c 2 t) (argX m c) (argA1 m c) (argB1 m c) (argA2 m c) (argB2 m c)
    ⟨2048 * t.val + p.val, by omega⟩ p o (fun d => xblk_apply m c t p d _ rfl) (w1blk_apply m c t) (w2blk_apply m c t)

/-- An index of the result array is in point t's block iff each coordinate is in the block's range. -/
theorem mem_blk (t : Fin cfg0.N) (i : S524288x128.Idx) :
    i ∈ ((cfg0.win 3).blk t).view.set ↔ ∀ a : Fin 2, win0_3.index t a * S2048x128.size a ≤ (i a).val
      ∧ (i a).val < win0_3.index t a * S2048x128.size a + S2048x128.size a := by
  show i ∈ ((View.whole main_v6).slice (win0_3.rect t)).set ↔ _
  rw [View.set_slice_whole, Rect.mem_set_unit]
  exact Iff.rfl

/-- Row r of the result lies in the block of point r / 2048: the 256 blocks tile the array. -/
theorem cover (i : S524288x128.Idx) :
    ∃ t : Fin cfg0.N, (cfg0.win 3).flush t = true ∧ i ∈ ((cfg0.win 3).blk t).view.set := by
  have hi0 : (i 0).val < 524288 := (i 0).isLt
  have hi1 : (i 1).val < 128 := (i 1).isLt
  have hN : cfg0.N = 256 := N_0
  let t : Fin cfg0.N := ⟨(i 0).val / 2048, by rw [hN]; omega⟩
  obtain ⟨-, -, -, -, -, -, e0, e1⟩ := idx_facts t
  have ht : t.val = (i 0).val / 2048 := rfl
  refine ⟨t, flush0_3 t, ?_⟩
  rw [mem_blk]
  intro a
  match a with
  | ⟨0, _⟩ =>
    show win0_3.index t (0 : Fin 2) * 2048 ≤ (i 0).val ∧ (i 0).val < win0_3.index t (0 : Fin 2) * 2048 + 2048
    rw [e0, ht]; omega
  | ⟨1, _⟩ =>
    show win0_3.index t (1 : Fin 2) * 128 ≤ (i 1).val ∧ (i 1).val < win0_3.index t (1 : Fin 2) * 128 + 128
    rw [e1]; omega

/-- After the run the result array is the specified result. -/
theorem final (c : Dev nD) : (dats m 0 c).arrAt 3 cfg0.N = result m c :=
  (dats m 0 c).arrAt_eq_of_cover 3 (result m c) (fun t _ => flushed_eq m c t) cover

/-- The kernel's run, read: the result array at the specified function of the arguments, the arguments unchanged. -/
theorem run : θ_run defs (onTc (τ := τ) (main (F := Ideal))) ⟨m, fun _ => 0, ρ⟩ fun r => ∀ c : Dev nD,
      r.2.mem ((c : Thread nD τ).loc main_v6) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final m c), (h c).2⟩) (Value.run_blocks m ρ)

end Cert.KernelIdeal.KernelValue

end
-- ==== Proof.RefValue.lean ====
/-
  The reference, read entry by entry: its last dot product over the squared hidden activation and the transposed
  second weight is the specified result. Each host dot product is a sum over its contracted coordinate, each
  transpose swaps the two coordinates, and the square is a product of a number with itself; composing these
  readings gives the specification's sums term for term.
-/
import proofs.«178964_j58978490908683_1_alg».proof.Proof.Gen.ReferenceIdeal.Read
import proofs.«178964_j58978490908683_1_alg».proof.Proof.Spec

noncomputable section

open scoped BigOperators

namespace Cert.ReferenceIdeal.RefValue

open Cert.ReferenceIdeal Cert.ReferenceIdeal.Read Idealize.ShloMosaic Idealize.ShloMosaic.ValueIdx Cert.LowRankMlp

/-- The transposed product A1 · B1 at (d, h) is the specification's first weight there. -/
theorem w1t_eq (A1 : FVec Ideal S512x16 .f32) (B1 : FVec Ideal S16x128 .f32) (d : Fin 128) (h : Fin 512) :
    val_main_v1 (F := Ideal) A1 B1 (ix2 d h) = w1t A1 B1 d h := by
  rw [val_main_v1_apply, val_main_v0_apply]
  unfold w1t
  refine Finset.sum_congr rfl fun r _ => ?_
  have e1 : lidx_main_v0 (idx_main_v1 (ix2 d h)) r = ix2 h r :=
    funext fun a => Fin.ext (by match a with | ⟨0, _⟩ => rfl | ⟨1, _⟩ => rfl)
  have e2 : ridx_main_v0 (idx_main_v1 (ix2 d h)) r = ix2 r d :=
    funext fun a => Fin.ext (by match a with | ⟨0, _⟩ => rfl | ⟨1, _⟩ => rfl)
  rw [e1, e2]

/-- The transposed product A2 · B2 at (h, o) is the specification's second weight there. -/
theorem w2t_eq (A2 : FVec Ideal S128x16 .f32) (B2 : FVec Ideal S16x512 .f32) (h : Fin 512) (o : Fin 128) :
    val_main_v5 (F := Ideal) A2 B2 (ix2 h o) = w2t A2 B2 h o := by
  rw [val_main_v5_apply, val_main_v4_apply]
  unfold w2t
  refine Finset.sum_congr rfl fun r _ => ?_
  have e1 : lidx_main_v4 (idx_main_v5 (ix2 h o)) r = ix2 o r :=
    funext fun a => Fin.ext (by match a with | ⟨0, _⟩ => rfl | ⟨1, _⟩ => rfl)
  have e2 : ridx_main_v4 (idx_main_v5 (ix2 h o)) r = ix2 r h :=
    funext fun a => Fin.ext (by match a with | ⟨0, _⟩ => rfl | ⟨1, _⟩ => rfl)
  rw [e1, e2]

/-- Row b of x against column h of the first weight is the hidden activation. -/
theorem hidden_eq (x : FVec Ideal S524288x128 .f32) (A1 : FVec Ideal S512x16 .f32) (B1 : FVec Ideal S16x128 .f32)
    (b : Fin 524288) (h : Fin 512) :
    val_main_v2 (F := Ideal) x A1 B1 (ix2 b h) = hiddenAt x A1 B1 b h := by
  rw [val_main_v2_apply]
  unfold hiddenAt
  refine Finset.sum_congr rfl fun d _ => ?_
  have e1 : lidx_main_v2 (ix2 b h) d = ix2 b d :=
    funext fun a => Fin.ext (by match a with | ⟨0, _⟩ => rfl | ⟨1, _⟩ => rfl)
  have e2 : ridx_main_v2 (ix2 b h) d = ix2 d h :=
    funext fun a => Fin.ext (by match a with | ⟨0, _⟩ => rfl | ⟨1, _⟩ => rfl)
  rw [e1, e2, w1t_eq]

/-- The reference's result array is the specified one. -/
theorem out_eq (x : FVec Ideal S524288x128 .f32) (A1 : FVec Ideal S512x16 .f32) (B1 : FVec Ideal S16x128 .f32)
    (A2 : FVec Ideal S128x16 .f32) (B2 : FVec Ideal S16x512 .f32) :
    val_main_v6 (F := Ideal) x A1 B1 A2 B2 = out x A1 B1 A2 B2 := by
  funext i
  obtain ⟨b, o, rfl⟩ : ∃ (b : Fin 524288) (o : Fin 128), i = ix2 b o := ⟨i 0, i 1, eq_ix2 i⟩
  rw [val_main_v6_apply, out_apply]
  unfold outAt
  refine Finset.sum_congr rfl fun h _ => ?_
  have e1 : lidx_main_v6 (ix2 b o) h = ix2 b h :=
    funext fun a => Fin.ext (by match a with | ⟨0, _⟩ => rfl | ⟨1, _⟩ => rfl)
  have e2 : ridx_main_v6 (ix2 b o) h = ix2 h o :=
    funext fun a => Fin.ext (by match a with | ⟨0, _⟩ => rfl | ⟨1, _⟩ => rfl)
  rw [e1, e2, val_main_v3_apply, hidden_eq, w2t_eq]
  rfl

end Cert.ReferenceIdeal.RefValue

end
-- ==== Proof.lean ====
/-
  The kernel computes y = (x · W1ᵀ)² · W2ᵀ for the low-rank weights W1 = A1 · B1 and W2 = A2 · B2 (the square
  taken entry by entry), one block of 2048 rows of x per grid point, the two transposed weights formed on the host
  beforehand; the reference computes the same expression with whole-array products. On the extended reals the
  narrowings to sixteen bits are the identity and each matrix product is a finite sum of products, so the two
  programs differ only in the order of the two factors inside each term of the weights' sums: the result arrays
  are equal entry by entry by commutativity of multiplication, and finiteness of the inputs is not used.

  The three frames are the generated ones (for the reference, its generated run with the result dropped); the
  idealization rewrote nothing, so there is nothing to preserve; the value claim sets the kernel's run
  (Proof/KernelValue.lean) beside the reference's (Proof/RefValue.lean), both ending at the specification of
  Proof/Spec.lean.
-/
import proofs.«178964_j58978490908683_1_alg».proof.Defs
import proofs.«178964_j58978490908683_1_alg».proof.Proof.Gen.Kernel
import proofs.«178964_j58978490908683_1_alg».proof.Proof.Gen.Kernel.Skeleton
import proofs.«178964_j58978490908683_1_alg».proof.Proof.Gen.Kernel.Launch
import proofs.«178964_j58978490908683_1_alg».proof.Proof.Gen.Kernel.Points
import proofs.«178964_j58978490908683_1_alg».proof.Proof.Gen.Kernel.Frame
import proofs.«178964_j58978490908683_1_alg».proof.Proof.Gen.KernelIdeal
import proofs.«178964_j58978490908683_1_alg».proof.Proof.Gen.KernelIdeal.Skeleton
import proofs.«178964_j58978490908683_1_alg».proof.Proof.Gen.KernelIdeal.Launch
import proofs.«178964_j58978490908683_1_alg».proof.Proof.Gen.KernelIdeal.Points
import proofs.«178964_j58978490908683_1_alg».proof.Proof.Gen.KernelIdeal.Frame
import proofs.«178964_j58978490908683_1_alg».proof.Proof.Gen.ReferenceIdeal
import proofs.«178964_j58978490908683_1_alg».proof.Proof.Gen.Pre_finite_inputs
import proofs.«178964_j58978490908683_1_alg».proof.Proof.Gen.KernelIdeal.Value
import proofs.«178964_j58978490908683_1_alg».proof.Proof.Gen.ReferenceIdeal.Run
import proofs.«178964_j58978490908683_1_alg».proof.Proof.Gen.ReferenceIdeal.Read
import proofs.«178964_j58978490908683_1_alg».proof.Proof.KernelValue
import proofs.«178964_j58978490908683_1_alg».proof.Proof.RefValue
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference is a straight line of host operations: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- No operation was rewritten for the reading on the extended reals. -/
theorem preserves : Cert.preserves_Kernel_KernelIdeal := trivial

/-- From argument arrays that agree, both programs end with the specified result in their result arrays. -/
theorem algebraic : Cert.algebraic_KernelIdeal_ReferenceIdeal := by
  intro m ρ m' ρ' _ hagree
  refine ⟨fun c => Cert.KernelIdeal.KernelValue.result m c, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Cert.ReferenceIdeal.RefValue.out_eq]
  obtain ⟨h0, h1, h2, h3, h4⟩ := hagree c
  rw [h0, h1, h2, h3, h4]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
